-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096 : Shape := ⟨3, ![8, 16, 4096]⟩
abbrev S1048576x16 : Shape := ⟨2, ![1048576, 16]⟩
abbrev S16x64 : Shape := ⟨2, ![16, 64]⟩
abbrev S64 : Shape := ⟨1, ![64]⟩
abbrev S64x16 : Shape := ⟨2, ![64, 16]⟩
abbrev S16 : Shape := ⟨1, ![16]⟩
abbrev S4096 : Shape := ⟨1, ![4096]⟩
abbrev S_ : Shape := ⟨0, ![]⟩

class Facts : Prop where
  bcast_S_S8x16x4096 : S_.BroadcastsInDim S8x16x4096 (![] : Fin 0 → Fin S8x16x4096.rank)
  reducesTo_S8x16x4096_S_d0_1_2 : S8x16x4096.ReducesTo [0, 1, 2] S_
  h_S_ : 0 < S_.numel
  bcast_S_S1048576x16 : S_.BroadcastsInDim S1048576x16 (![] : Fin 0 → Fin S1048576x16.rank)
  reducesTo_S1048576x16_S_d0_1 : S1048576x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S64x16 .f32) (main_arg5 : FVec F S16 .f32) (main_arg6 : FVec F S4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8x16x4096 .f32) (main_arg1 : FVec F S1048576x16 .f32) (main_arg2 : FVec F S16x64 .f32) (main_arg3 : FVec F S64 .f32) (main_arg4 : FVec F S64x16 .f32) (main_arg5 : FVec F S16 .f32) (main_arg6 : FVec F S4096 .f32) : IVec S_ 1 :=
  let main_v0 : FVec F S8x16x4096 .f32 := Host.absf main_arg0
  let main_cst : FVec F S_ .f32 := constant S_ .f32 0x7F800000#32
  let main_v1 : FVec F S8x16x4096 .f32 := broadcastInDim S8x16x4096 ![] bcast_S_S8x16x4096 main_cst
  let main_v2 : IVec S8x16x4096 1 := cmpf .olt main_v0 main_v1
  let main_c : IVec S_ 1 := constantI S_ 1 1#1
  let main_v3 : IVec S_ 1 := (fun x v => Host.reduce IntOp.andi x v reducesTo_S8x16x4096_S_d0_1_2 h_S_) main_v2 main_c
  let main_v4 : FVec F S1048576x16 .f32 := Host.absf main_arg1
  let main_cst_0 : FVec F S_ .f32 := constant S_ .f32 0x7F800000#32
  let main_v5 : FVec F S1048576x16 .f32 := broadcastInDim S1048576x16 ![] bcast_S_S1048576x16 main_cst_0
  let main_v6 : IVec S1048576x16 1 := cmpf .olt main_v4 main_v5
  let main_c_1 : IVec S_ 1 := constantI S_ 1 1#1
  let main_v7 : IVec S_ 1 := (fun x v => Host.reduce IntOp.andi x v reducesTo_S1048576x16_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S8x16x4096 : Shape := ⟨3, ![8, 16, 4096]⟩
abbrev S1048576x16 : Shape := ⟨2, ![1048576, 16]⟩
abbrev S16x64 : Shape := ⟨2, ![16, 64]⟩
abbrev S64 : Shape := ⟨1, ![64]⟩
abbrev S64x16 : Shape := ⟨2, ![64, 16]⟩
abbrev S16 : Shape := ⟨1, ![16]⟩
abbrev S4096 : Shape := ⟨1, ![4096]⟩
abbrev S16384x16 : Shape := ⟨2, ![16384, 16]⟩
abbrev S16384x64 : Shape := ⟨2, ![16384, 64]⟩
abbrev S1x64 : Shape := ⟨2, ![1, 64]⟩
abbrev S1x16 : Shape := ⟨2, ![1, 16]⟩
abbrev S1048576x4x4 : Shape := ⟨3, ![1048576, 4, 4]⟩
abbrev S4x1048576x4 : Shape := ⟨3, ![4, 1048576, 4]⟩
abbrev S16777216 : Shape := ⟨1, ![16777216]⟩
abbrev S4096x4096 : Shape := ⟨2, ![4096, 4096]⟩
abbrev S128x4096 : Shape := ⟨2, ![128, 4096]⟩
abbrev S512x4096 : Shape := ⟨2, ![512, 4096]⟩
abbrev S512 : Shape := ⟨1, ![512]⟩
abbrev S128x512 : Shape := ⟨2, ![128, 512]⟩
abbrev S1x512 : Shape := ⟨2, ![1, 512]⟩

abbrev nBuf : Space → Nat
  | .hbm => 15
  | .vmem => 15
  | .smem => 0
  | _ => 0

abbrev bufTy : (tb : Table) → Fin (tcTables nBuf tb) → BufTy
  | .hbm, ⟨0, _⟩ => ⟨S8x16x4096, .f32⟩
  | .hbm, ⟨1, _⟩ => ⟨S1048576x16, .f32⟩
  | .hbm, ⟨2, _⟩ => ⟨S16x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S4096, .f32⟩
  | .hbm, ⟨7, _⟩ => ⟨S1048576x16, .bf16⟩
  | .hbm, ⟨8, _⟩ => ⟨S1048576x4x4, .bf16⟩
  | .hbm, ⟨9, _⟩ => ⟨S4x1048576x4, .bf16⟩
  | .hbm, ⟨10, _⟩ => ⟨S16777216, .bf16⟩
  | .hbm, ⟨11, _⟩ => ⟨S4096x4096, .bf16⟩
  | .hbm, ⟨12, _⟩ => ⟨S128x4096, .f32⟩
  | .hbm, ⟨13, _⟩ => ⟨S128x4096, .f32⟩
  | .hbm, ⟨14, _⟩ => ⟨S8x16x4096, .f32⟩
  | .local _ .vmem, ⟨0, _⟩ => ⟨S16384x16, .f32⟩
  | .local _ .vmem, ⟨1, _⟩ => ⟨S16384x16, .f32⟩
  | .local _ .vmem, ⟨2, _⟩ => ⟨S16x64, .f32⟩
  | .local _ .vmem, ⟨3, _⟩ => ⟨S64, .f32⟩
  | .local _ .vmem, ⟨4, _⟩ => ⟨S64x16, .f32⟩
  | .local _ .vmem, ⟨5, _⟩ => ⟨S16, .f32⟩
  | .local _ .vmem, ⟨6, _⟩ => ⟨S16384x16, .bf16⟩
  | .local _ .vmem, ⟨7, _⟩ => ⟨S16384x16, .bf16⟩
  | .local _ .vmem, ⟨8, _⟩ => ⟨S128x4096, .f32⟩
  | .local _ .vmem, ⟨9, _⟩ => ⟨S512x4096, .bf16⟩
  | .local _ .vmem, ⟨10, _⟩ => ⟨S512x4096, .bf16⟩
  | .local _ .vmem, ⟨11, _⟩ => ⟨S512, .f32⟩
  | .local _ .vmem, ⟨12, _⟩ => ⟨S512, .f32⟩
  | .local _ .vmem, ⟨13, _⟩ => ⟨S128x512, .f32⟩
  | .local _ .vmem, ⟨14, _⟩ => ⟨S128x512, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S16384x16_S16384x16_0_0 : ∀ a, (![0, 0] : Fin 2 → Nat) a + S16384x16.size a ≤ S16384x16.size a
  h_S16384x16 : 0 < S16384x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S16384x16 : S1x16.Broadcasts S16384x16
  packedbf16_S16384x16_S16384x16_0_0 : (Rect.unit (s := S16384x16) ![0, 0] S16384x16.size inb_S16384x16_S16384x16_0_0).PackedRows (EltTy.packing .bf16)
  shapeCasts_S1048576x16_S1048576x4x4 : S1048576x16.ShapeCasts S1048576x4x4
  transposes_S1048576x4x4_S4x1048576x4_1_0_2 : S1048576x4x4.Transposes [1, 0, 2] S4x1048576x4
  shapeCasts_S4x1048576x4_S16777216 : S4x1048576x4.ShapeCasts S16777216
  shapeCasts_S16777216_S4096x4096 : S16777216.ShapeCasts S4096x4096
  shapeCasts_S8x16x4096_S128x4096 : S8x16x4096.ShapeCasts S128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S128x4096_S8x16x4096 : S128x4096.ShapeCasts S8x16x4096
  dot_S16384x16_S16x64_S16384x64_1_0_0_1_n_n_wf : DotDims.WF S16384x16 S16x64 S16384x64 [1] [0] [0] [1] [] []
  dot_S16384x64_S64x16_S16384x16_1_0_0_1_n_n_wf : DotDims.WF S16384x64 S64x16 S16384x16 [1] [0] [0] [1] [] []
  dot_S128x4096_S512x4096_S128x512_1_1_0_0_n_n_wf : DotDims.WF S128x4096 S512x4096 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x16.size a ≤ S1048576x16.size a
  hwx0_0 : ∀ i : grid0.Coords, EltTy.bits .f32 = 32 ∨ (Rect.block (s := S1048576x16) S16384x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x16.size a ≤ S1048576x16.size a
  hwx0_5 : ∀ i : grid0.Coords, EltTy.bits .bf16 = 32 ∨ (Rect.block (s := S1048576x16) S16384x16.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S128x4096.size a
  hwx1_0 : ∀ i : grid1.Coords, EltTy.bits .f32 = 32 ∨ (Rect.block (s := S128x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S4096.size a
  hwx1_2 : ∀ i : grid1.Coords, EltTy.bits .f32 = 32 ∨ (Rect.block (s := S4096) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x4096.size a
  hwx1_3 : ∀ i : grid1.Coords, EltTy.bits .f32 = 32 ∨ (Rect.block (s := S128x4096) S128x512.size (cc1_transform_3 i) (hinb1_3 i)).WholeWords (EltTy.packing .f32)

variable [Facts₀]

def dot_S16384x16_S16x64_S16384x64_1_0_0_1_n_n : DotDims S16384x16 S16x64 S16384x64 where
  lhsContracting := [1]
  rhsContracting := [0]
  lhsNonContracting := [0]
  rhsNonContracting := [1]
  lhsBatch := []
  rhsBatch := []
  wf := dot_S16384x16_S16x64_S16384x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf

abbrev win0_0 : Pipeline.Window sig grid0 :=
  Pipeline.Window.ofSpec (Memref.whole main_arg1) S16384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16384x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S128x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x16x4096 : Shape := ⟨3, ![8, 16, 4096]⟩
abbrev S1048576x16 : Shape := ⟨2, ![1048576, 16]⟩
abbrev S16x64 : Shape := ⟨2, ![16, 64]⟩
abbrev S64 : Shape := ⟨1, ![64]⟩
abbrev S64x16 : Shape := ⟨2, ![64, 16]⟩
abbrev S16 : Shape := ⟨1, ![16]⟩
abbrev S4096 : Shape := ⟨1, ![4096]⟩
abbrev S1048576x64 : Shape := ⟨2, ![1048576, 64]⟩
abbrev S1x64 : Shape := ⟨2, ![1, 64]⟩
abbrev S_ : Shape := ⟨0, ![]⟩
abbrev S1x16 : Shape := ⟨2, ![1, 16]⟩
abbrev S1048576x4x4 : Shape := ⟨3, ![1048576, 4, 4]⟩
abbrev S4x1048576x4 : Shape := ⟨3, ![4, 1048576, 4]⟩
abbrev S16777216 : Shape := ⟨1, ![16777216]⟩
abbrev S4096x4096 : Shape := ⟨2, ![4096, 4096]⟩
abbrev S1x1x4096 : Shape := ⟨3, ![1, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S1048576x16, .f32⟩
  | .hbm, ⟨2, _⟩ => ⟨S16x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S4096, .f32⟩
  | .hbm, ⟨7, _⟩ => ⟨S1048576x64, .f32⟩
  | .hbm, ⟨8, _⟩ => ⟨S1x64, .f32⟩
  | .hbm, ⟨9, _⟩ => ⟨S1048576x64, .f32⟩
  | .hbm, ⟨10, _⟩ => ⟨S1048576x64, .f32⟩
  | .hbm, ⟨11, _⟩ => ⟨S_, .f32⟩
  | .hbm, ⟨12, _⟩ => ⟨S1048576x64, .f32⟩
  | .hbm, ⟨13, _⟩ => ⟨S1048576x64, .f32⟩
  | .hbm, ⟨14, _⟩ => ⟨S1048576x16, .f32⟩
  | .hbm, ⟨15, _⟩ => ⟨S1x16, .f32⟩
  | .hbm, ⟨16, _⟩ => ⟨S1048576x16, .f32⟩
  | .hbm, ⟨17, _⟩ => ⟨S1048576x16, .f32⟩
  | .hbm, ⟨18, _⟩ => ⟨S1048576x4x4, .f32⟩
  | .hbm, ⟨19, _⟩ => ⟨S4x1048576x4, .f32⟩
  | .hbm, ⟨20, _⟩ => ⟨S16777216, .f32⟩
  | .hbm, ⟨21, _⟩ => ⟨S4096x4096, .f32⟩
  | .hbm, ⟨22, _⟩ => ⟨S8x16x4096, .f32⟩
  | .hbm, ⟨23, _⟩ => ⟨S1x1x4096, .f32⟩
  | .hbm, ⟨24, _⟩ => ⟨S8x16x4096, .f32⟩
  | .hbm, ⟨25, _⟩ => ⟨S8x16x4096, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  shapeCasts_S1048576x16_S1048576x4x4 : S1048576x16.ShapeCasts S1048576x4x4
  transposes_S1048576x4x4_S4x1048576x4_1_0_2 : S1048576x4x4.Transposes [1, 0, 2] S4x1048576x4
  shapeCasts_S4x1048576x4_S16777216 : S4x1048576x4.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S8x16x4096_0_1_2 : S1x1x4096.BroadcastsInDim S8x16x4096 (![0, 1, 2] : Fin 3 → Fin S8x16x4096.rank)
  dot_S1048576x16_S16x64_S1048576x64_1_0_0_1_n_n_wf : DotDims.WF S1048576x16 S16x64 S1048576x64 [1] [0] [0] [1] [] []
  dot_S1048576x64_S64x16_S1048576x16_1_0_0_1_n_n_wf : DotDims.WF S1048576x64 S64x16 S1048576x16 [1] [0] [0] [1] [] []
  dot_S8x16x4096_S4096x4096_S8x16x4096_2_1_01_0_n_n_wf : DotDims.WF S8x16x4096 S4096x4096 S8x16x4096 [2] [1] [0, 1] [0] [] []

variable [Facts₀]

def dot_S1048576x16_S16x64_S1048576x64_1_0_0_1_n_n : DotDims S1048576x16 S16x64 S1048576x64 where
  lhsContracting := [1]
  rhsContracting := [0]
  lhsNonContracting := [0]
  rhsNonContracting := [1]
  lhsBatch := []
  rhsBatch := []
  wf := dot_S1048576x16_S16x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S8x16x4096_S4096x4096_S8x16x4096_2_1_01_0_n_n : DotDims S8x16x4096 S4096x4096 S8x16x4096 where
  lhsContracting := [2]
  rhsContracting := [1]
  lhsNonContracting := [0, 1]
  rhsNonContracting := [0]
  lhsBatch := []
  rhsBatch := []
  wf := dot_S8x16x4096_S4096x4096_S8x16x4096_2_1_01_0_n_n_wf

class Facts : Prop extends Facts₀ where

variable [Facts]
-- ==== Proof.LibMatmulAtT.lean ====
/-
  A matrix product with the right operand stored row by row along the contracted axis, into a zero accumulator,
  read at one entry over the extended reals.

  For dimension numbers that contract the second axis of BOTH operands, with no batch axis — the left operand read
  at (row, k), the right at (column, k): the product of an [A × K] matrix with the transpose of a [B × K] matrix —
  the entry (p, q) is `∑ₖ l[p, k] · r[q, k]`. The four facts about where the dimension numbers read their operands
  are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · rᵀ` accumulated into zero is the sum over the contracted axis of `l[p, k] · r[q, k]`, for
    dimension numbers `D` whose one contracted axis has extent `K` (`hr`, `hs`) and which read the left operand at
    (row, k) (`hl0`, `hl1`) and the right at (column, k) (`hr0`, `hr1`). -/
theorem matmul_zero_at_t {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulAt

end
-- ==== Proof.Spec.lean ====
/-
  The layer as mathematics, over the extended reals.

  A table of 1,048,576 latent codes of width 16 is decoded row by row through a small two-layer network,
      decoded[r, c] = (∑ₕ max(∑ₗ vq[r, l] · w1[l, h] + b1[h], 0) · w2[h, c]) + b2[c],
  the decoded table is rearranged — each row of 16 read as 4 groups of 4, the group index moved in front of the row
  index, the whole flattened and cut into 4096 rows of 4096 — into a weight matrix `W`, and the layer's output is
      out[b, s, o] = (∑ₖ x[b, s, k] · W[o, k]) + bias[o].
  Every sum is a finite sum of extended reals, whose addition is commutative and associative, so the order in which
  a program accumulates it does not matter; nothing here needs the inputs to be finite.
-/
import Idealize.ShloMosaic.PureOps.Ideal
import Idealize.ShloMosaic.Lib.ValueIdx

noncomputable section

namespace Cert.Spec

open Idealize.ShloMosaic Idealize.ShloMosaic.ValueIdx

/-- The zero the rectifier compares with: the value of the float word `0`. -/
abbrev zero : EReal := Ideal.ofBits .f32 0x00000000#32

/-- Entry (p, q) of the decoded table, for a table (or a block of it) of `A` rows: row `p` of the codes through the
    hidden layer of width 64, rectified, then through the output layer of width 16. It depends on row `p` of the
    codes only. -/
def decodeAt {A : Nat} (vq : (⟨2, ![A, 16]⟩ : Shape).Idx → EReal) (w1 : (⟨2, ![16, 64]⟩ : Shape).Idx → EReal)
    (b1 : (⟨1, ![64]⟩ : Shape).Idx → EReal) (w2 : (⟨2, ![64, 16]⟩ : Shape).Idx → EReal)
    (b2 : (⟨1, ![16]⟩ : Shape).Idx → EReal) (p : Fin A) (q : Fin 16) : EReal :=
  (∑ h : Fin 64, max ((∑ l : Fin 16, vq (ix2 p l) * w1 (ix2 l h)) + b1 (ix1 h)) zero * w2 (ix2 h q)) + b2 (ix1 q)

/-- The decoded table as an array. -/
def decode {A : Nat} (vq : (⟨2, ![A, 16]⟩ : Shape).Idx → EReal) (w1 : (⟨2, ![16, 64]⟩ : Shape).Idx → EReal)
    (b1 : (⟨1, ![64]⟩ : Shape).Idx → EReal) (w2 : (⟨2, ![64, 16]⟩ : Shape).Idx → EReal)
    (b2 : (⟨1, ![16]⟩ : Shape).Idx → EReal) : (⟨2, ![A, 16]⟩ : Shape).Idx → EReal :=
  fun i => decodeAt vq w1 b1 w2 b2 (i 0) (i 1)

/-- Entry (p, q) of `x · wᵀ + b` for `x` of `A` rows and `w` of `B` rows, both of width `K`: it depends on row `p`
    of `x`, row `q` of `w` and entry `q` of `b` only. -/
def linearAt {A B K : Nat} (x : (⟨2, ![A, K]⟩ : Shape).Idx → EReal) (w : (⟨2, ![B, K]⟩ : Shape).Idx → EReal)
    (b : (⟨1, ![B]⟩ : Shape).Idx → EReal) (p : Fin A) (q : Fin B) : EReal :=
  (∑ k : Fin K, x (ix2 p k) * w (ix2 q k)) + b (ix1 q)

/-- `x · wᵀ + b` as an array. -/
def linear {A B K : Nat} (x : (⟨2, ![A, K]⟩ : Shape).Idx → EReal) (w : (⟨2, ![B, K]⟩ : Shape).Idx → EReal)
    (b : (⟨1, ![B]⟩ : Shape).Idx → EReal) : (⟨2, ![A, B]⟩ : Shape).Idx → EReal :=
  fun i => linearAt x w b (i 0) (i 1)

/-- The layer's output at (batch, position, output feature). -/
def outAt (x : (⟨3, ![8, 16, 4096]⟩ : Shape).Idx → EReal) (w : (⟨2, ![4096, 4096]⟩ : Shape).Idx → EReal)
    (b : (⟨1, ![4096]⟩ : Shape).Idx → EReal) (i0 : Fin 8) (i1 : Fin 16) (o : Fin 4096) : EReal :=
  (∑ k : Fin 4096, x (ix3 i0 i1 k) * w (ix2 o k)) + b (ix1 o)

/-- The layer's output as an array. -/
def out (x : (⟨3, ![8, 16, 4096]⟩ : Shape).Idx → EReal) (w : (⟨2, ![4096, 4096]⟩ : Shape).Idx → EReal)
    (b : (⟨1, ![4096]⟩ : Shape).Idx → EReal) : (⟨3, ![8, 16, 4096]⟩ : Shape).Idx → EReal :=
  fun i => outAt x w b (i 0) (i 1) (i 2)

/-- The rearrangement of the decoded table into the weight matrix: rows of 16 as 4 groups of 4, the group index
    in front, flattened, cut into 4096 rows of 4096. A pure relabelling of entries, of any element type; both
    programs apply it, so it is never opened. -/
def relay {α : Type}
    (h1 : (⟨2, ![1048576, 16]⟩ : Shape).ShapeCasts ⟨3, ![1048576, 4, 4]⟩)
    (h2 : (⟨3, ![1048576, 4, 4]⟩ : Shape).Transposes [1, 0, 2] ⟨3, ![4, 1048576, 4]⟩)
    (h3 : (⟨3, ![4, 1048576, 4]⟩ : Shape).ShapeCasts ⟨1, ![16777216]⟩)
    (h4 : (⟨1, ![16777216]⟩ : Shape).ShapeCasts ⟨2, ![4096, 4096]⟩)
    (a : (⟨2, ![1048576, 16]⟩ : Shape).Idx → α) : (⟨2, ![4096, 4096]⟩ : Shape).Idx → α :=
  shapeCast ⟨2, ![4096, 4096]⟩ (shapeCast ⟨1, ![16777216]⟩ (transpose ⟨3, ![4, 1048576, 4]⟩ [1, 0, 2]
    (shapeCast ⟨3, ![1048576, 4, 4]⟩ a h1) h2) h3) h4

end Cert.Spec

end
-- ==== Proof.LinearBody.lean ====
/-
  What the linear kernel's body stores, read at one entry over the extended reals.

  The body loads a block `x` of 128 rows, a block `w` of 512 rows of the weight matrix (both of width 4096) and the
  512 matching bias entries, and stores `x · wᵀ + bias`: entry (p, q) is `(∑ₖ x[p, k] · w[q, k]) + bias[q]`. The
  narrowing of `x` to the weight's float format is the identity on the extended reals, and the product is
  accumulated into zero.
-/
import proofs.«140959_j13211319403237_1_alg».proof.Proof.Gen.KernelIdeal.Skeleton
import proofs.«140959_j13211319403237_1_alg».proof.Proof.LibMatmulAtT
import proofs.«140959_j13211319403237_1_alg».proof.Proof.Spec
import Idealize.ShloMosaic.Lib.ValueLayout
import Idealize.ShloMosaic.Lib.Pipeline.Value

noncomputable section

namespace Cert.KernelIdeal.LinearBody

open Cert.KernelIdeal Cert.KernelIdeal.Gen Idealize.ShloMosaic Idealize.ShloMosaic.ValueIdx Idealize.ShloMosaic.MatmulAt

/-! Where the product's dimension numbers read their operands: the left at (row, k), the right at (column, k). -/

theorem lhs_0 (i : S128x512.Idx) (q : dot_S128x4096_S512x4096_S128x512_1_1_0_0_n_n.contr.Idx) :
    (dot_S128x4096_S512x4096_S128x512_1_1_0_0_n_n.lhsIdx i q 0).val = (i 0).val := by
  unfold DotDims.lhsIdx
  rw [dif_neg (show ¬(0 : Fin S128x4096.rank) ∈ dot_S128x4096_S512x4096_S128x512_1_1_0_0_n_n.lhsBatch by decide), dif_pos (show (0 : Fin S128x4096.rank) ∈ dot_S128x4096_S512x4096_S128x512_1_1_0_0_n_n.lhsNonContracting by decide)]
  rfl
theorem lhs_1 (i : S128x512.Idx) (q : dot_S128x4096_S512x4096_S128x512_1_1_0_0_n_n.contr.Idx) :
    (dot_S128x4096_S512x4096_S128x512_1_1_0_0_n_n.lhsIdx i q 1).val = (q ⟨0, by decide⟩).val :=
  dot_S128x4096_S512x4096_S128x512_1_1_0_0_n_n.lhsIdx_val_of_single rfl i q
theorem rhs_0 (i : S128x512.Idx) (q : dot_S128x4096_S512x4096_S128x512_1_1_0_0_n_n.contr.Idx) :
    (dot_S128x4096_S512x4096_S128x512_1_1_0_0_n_n.rhsIdx i q 0).val = (i 1).val := by
  unfold DotDims.rhsIdx
  rw [dif_neg (show ¬(0 : Fin S512x4096.rank) ∈ dot_S128x4096_S512x4096_S128x512_1_1_0_0_n_n.rhsBatch by decide), dif_pos (show (0 : Fin S512x4096.rank) ∈ dot_S128x4096_S512x4096_S128x512_1_1_0_0_n_n.rhsNonContracting by decide)]
  rfl
theorem rhs_1 (i : S128x512.Idx) (q : dot_S128x4096_S512x4096_S128x512_1_1_0_0_n_n.contr.Idx) :
    (dot_S128x4096_S512x4096_S128x512_1_1_0_0_n_n.rhsIdx i q 1).val = (q ⟨0, by decide⟩).val :=
  dot_S128x4096_S512x4096_S128x512_1_1_0_0_n_n.rhsIdx_val_of_single rfl i q

/-- Entry (p, q) of the stored block is `(∑ₖ x[p, k] · w[q, k]) + bias[q]`. -/
theorem pay_at (v0 : Vec Ideal S128x4096 .f32) (v3 : Vec Ideal S512x4096 .bf16) (v6 : Vec Ideal S512 .f32)
    (p : Fin 128) (q : Fin 512) :
    k1_pay1 (F := Ideal) v0 v3 v6 (ix2 p q) = Cert.Spec.linearAt v0 v3 v6 p q := by
  unfold k1_pay1 Cert.Spec.linearAt
  show FloatOps.matmul dot_S128x4096_S512x4096_S128x512_1_1_0_0_n_n none _ _ (constant (F := Ideal) S128x512 .f32 0x00000000#32) (ix2 p q)
      + broadcastTo S128x512 (shapeCast S1x512 v6 _) _ (ix2 p q) = _
  rw [matmul_zero_at_t (A := 128) (K := 4096) (B := 512) dot_S128x4096_S512x4096_S128x512_1_1_0_0_n_n rfl rfl lhs_0 lhs_1 rhs_0 rhs_1,
    broadcastTo_1b_ab_apply, shapeCast_a_1a_apply]
  simp only [shapeCast_self]
  rfl

end Cert.KernelIdeal.LinearBody

end
-- ==== Proof.LinearArray.lean ====
/-
  The array the linear kernel's launch leaves, as one function of the arrays it finds.

  The launch runs over 8 grid points. Point `t` reads `x` whole (128 rows of width 4096), rows
  `512·t … 512·t + 511` of the weight matrix and the same 512 bias entries, and writes columns
  `512·t … 512·t + 511` of the [128, 4096] result. Each written entry (p, 512·t + q) is
  `(∑ₖ x[p, k] · W[512·t + q, k]) + bias[512·t + q]`, which names no `t`: the 8 column blocks are restrictions of
  ONE function of the arrays, and they tile the result, so the result array ends holding that function.
-/
import proofs.«140959_j13211319403237_1_alg».proof.Proof.Gen.KernelIdeal.Frame
import proofs.«140959_j13211319403237_1_alg».proof.Proof.LinearBody
import Idealize.ShloMosaic.Lib.Pipeline.Value

set_option maxRecDepth 16384

noncomputable section

namespace Cert.KernelIdeal.LinearArray

open Cert.KernelIdeal Cert.KernelIdeal.Gen Idealize.ShloMosaic Idealize.ShloMosaic.TcCoe Idealize.ShloMosaic.ValueIdx
open Idealize.SL.Sem
open Idealize.ShloMosaic.Pipeline (Dat)

-- The contents of the core's buffers when the launch is entered: a parameter.
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The block index of each window at grid point `t`: `x` stays at block 0; the weight rows, the bias and the
    result's columns are at block `t`. -/
theorem block_index : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 1) = t.val
    ∧ win1_3.index t (0 : Fin 2) = 0 ∧ win1_3.index t (1 : Fin 2) = t.val :=
  (by decide +kernel : ∀ t : Fin grid1.N, _)

/-- The `x` block at any point is `x`. -/
theorem read_x (c : Dev nD) (t : Fin cfg1.N) (p : Fin 128) (k : Fin 4096) :
    iblk1 V c 0 t (ix2 p k) = V c main_v5 (ix2 p k) := by
  obtain ⟨e0, e1, -⟩ := block_index t
  show V c main_v5 (((cfg1.win 0).blk t).view.emb (ix2 p k)) = V c main_v5 (ix2 p k)
  refine congrArg (V c main_v5) (funext fun a => Fin.ext ?_)
  match a with
  | ⟨0, _⟩ => show win1_0.index t (0 : Fin 2) * 128 + 1 * p.val = p.val; omega
  | ⟨1, _⟩ => show win1_0.index t (1 : Fin 2) * 4096 + 1 * k.val = k.val; omega

/-- Row `q` of the weight block at point `t` is row `512·t + q` of the weight matrix. -/
theorem read_w (c : Dev nD) (t : Fin cfg1.N) (q : Fin 512) (k : Fin 4096) (hq : t.val * 512 + q.val < 4096) :
    iblk1 V c 1 t (ix2 q k) = V c main_v4 (ix2 ⟨t.val * 512 + q.val, hq⟩ k) := by
  obtain ⟨-, -, e2, e3, -⟩ := block_index t
  show V c main_v4 (((cfg1.win 1).blk t).view.emb (ix2 q k)) = V c main_v4 (ix2 ⟨t.val * 512 + q.val, hq⟩ k)
  refine congrArg (V c main_v4) (funext fun a => Fin.ext ?_)
  match a with
  | ⟨0, _⟩ => show win1_1.index t (0 : Fin 2) * 512 + 1 * q.val = t.val * 512 + q.val; omega
  | ⟨1, _⟩ => show win1_1.index t (1 : Fin 2) * 4096 + 1 * k.val = k.val; omega

/-- Entry `q` of the bias block at point `t` is entry `512·t + q` of the bias. -/
theorem read_b (c : Dev nD) (t : Fin cfg1.N) (q : Fin 512) (hq : t.val * 512 + q.val < 4096) :
    iblk1 V c 2 t (ix1 q) = V c main_arg6 (ix1 ⟨t.val * 512 + q.val, hq⟩) := by
  obtain ⟨-, -, -, -, e4, -⟩ := block_index t
  show V c main_arg6 (((cfg1.win 2).blk t).view.emb (ix1 q)) = V c main_arg6 (ix1 ⟨t.val * 512 + q.val, hq⟩)
  refine congrArg (V c main_arg6) (funext fun a => Fin.ext ?_)
  match a with
  | ⟨0, _⟩ => show win1_2.index t (0 : Fin 1) * 512 + 1 * q.val = t.val * 512 + q.val; omega

/-- What the body stores from blocks that are: `x` itself, rows `512·n + ·` of a matrix `A1` and entries `512·n + ·`
    of a vector `A2` — read at `j` — is `x · A1ᵀ + A2` read at the index `i` with the same row and column
    `512·n + j₁`. Stated over variables of the literal types. -/
theorem block_value (X0 : Vec Ideal S128x4096 .f32) (X1 : Vec Ideal S512x4096 .bf16) (X2 : Vec Ideal S512 .f32)
    (A0 : Vec Ideal S128x4096 .f32) (A1 : Vec Ideal S4096x4096 .bf16) (A2 : Vec Ideal S4096 .f32) (n : ℕ)
    (h0 : ∀ (p : Fin 128) (k : Fin 4096), X0 (ix2 p k) = A0 (ix2 p k))
    (h1 : ∀ (q : Fin 512) (k : Fin 4096) (hq : n * 512 + q.val < 4096), X1 (ix2 q k) = A1 (ix2 ⟨n * 512 + q.val, hq⟩ k))
    (h2 : ∀ (q : Fin 512) (hq : n * 512 + q.val < 4096), X2 (ix1 q) = A2 (ix1 ⟨n * 512 + q.val, hq⟩))
    (j : S128x512.Idx) (i : S128x4096.Idx) (hi0 : (i 0).val = (j 0).val) (hi1 : (i 1).val = n * 512 + (j 1).val) :
    k1_pay1 (F := Ideal) X0 X1 X2 j = Cert.Spec.linear A0 A1 A2 i := by
  obtain ⟨p, q, rfl⟩ : ∃ (p : Fin 128) (q : Fin 512), j = ix2 p q := ⟨j 0, j 1, eq_ix2 j⟩
  obtain ⟨p', q', rfl⟩ : ∃ (p' : Fin 128) (q' : Fin 4096), i = ix2 p' q' := ⟨i 0, i 1, eq_ix2 i⟩
  have hp : p' = p := Fin.ext hi0
  subst hp
  have hq : n * 512 + q.val < 4096 := by
    have := q'.isLt
    have e : q'.val = n * 512 + q.val := hi1
    omega
  have hq' : q' = ⟨n * 512 + q.val, hq⟩ := Fin.ext hi1
  subst hq'
  rw [LinearBody.pay_at]
  show (∑ k : Fin 4096, X0 (ix2 p' k) * X1 (ix2 q k)) + X2 (ix1 q)
    = (∑ k : Fin 4096, A0 (ix2 p' k) * A1 (ix2 ⟨n * 512 + q.val, hq⟩ k)) + A2 (ix1 ⟨n * 512 + q.val, hq⟩)
  rw [h2 q hq]
  refine congrArg (· + A2 (ix1 ⟨n * 512 + q.val, hq⟩)) (Finset.sum_congr rfl fun k _ => ?_)
  rw [h0 p' k, h1 q k hq]

/-- What point `t` writes back is block `t` of `x · Wᵀ + bias` of the arrays the launch finds. -/
theorem flushed_eq (c : Dev nD) (t : Fin cfg1.N) :
    (dat1 V c).flushed 3 t
      = ((cfg1.win 3).blk t).view.read (Elt Ideal) (Cert.Spec.linear (V c main_v5) (V c main_v4) (V c main_arg6)) := by
  show (cfg1.win 3).cut (grid1.coords t) ((dat1 V c).after 3 t) = _
  rw [after1_3]
  unfold out1_3
  rw [View.canon_unit_zero zeros2]
  simp only [View.ld_unit_zero (S := S128x4096) zeros2, View.ld_unit_zero (S := S512x4096) zeros2,
    View.ld_unit_zero (S := S512) zeros1]
  obtain ⟨-, -, -, -, -, e5, e6⟩ := block_index t
  funext j
  exact block_value (iblk1 V c 0 t) (iblk1 V c 1 t) (iblk1 V c 2 t) (V c main_v5) (V c main_v4) (V c main_arg6) t.val
    (read_x V c t) (read_w V c t) (read_b V c t) j (((cfg1.win 3).blk t).view.emb j)
    (by show win1_3.index t (0 : Fin 2) * 128 + 1 * (j 0).val = (j 0).val; omega)
    (by show win1_3.index t (1 : Fin 2) * 512 + 1 * (j 1).val = t.val * 512 + (j 1).val; omega)

/-- An index of the result is in point `t`'s block iff each coordinate is in the block's range on its axis. -/
theorem mem_blk (t : Fin cfg1.N) (i : S128x4096.Idx) :
    i ∈ ((cfg1.win 3).blk t).view.set ↔ ∀ a : Fin 2, win1_3.index t a * S128x512.size a ≤ (i a).val
      ∧ (i a).val < win1_3.index t a * S128x512.size a + S128x512.size a := by
  show i ∈ ((View.whole main_v6).slice (win1_3.rect t)).set ↔ _
  rw [View.set_slice_whole, Rect.mem_set_unit]
  exact Iff.rfl

/-- Every index of the result is in the block of the point its column falls to. -/
theorem cover (i : S128x4096.Idx) :
    ∃ t : Fin cfg1.N, (cfg1.win 3).flush t = true ∧ i ∈ ((cfg1.win 3).blk t).view.set := by
  have h0 : (i 0).val < 128 := (i 0).isLt
  have h1 : (i 1).val < 4096 := (i 1).isLt
  obtain ⟨t, ht⟩ : ∃ t : Fin cfg1.N, t.val = (i 1).val / 512 := ⟨⟨(i 1).val / 512, by show _ < 8; omega⟩, rfl⟩
  obtain ⟨-, -, -, -, -, e5, e6⟩ := block_index t
  refine ⟨t, flush1_3 t, ?_⟩
  rw [mem_blk]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 512 ≤ (i 1).val ∧ (i 1).val < win1_3.index t (1 : Fin 2) * 512 + 512; omega

/-- The result array after the launch: `x · Wᵀ + bias` of the arrays the launch finds. -/
theorem array_eq (c : Dev nD) :
    (dat1 V c).arrAt 3 cfg1.N = Cert.Spec.linear (V c main_v5) (V c main_v4) (V c main_arg6) :=
  (dat1 V c).arrAt_eq_of_cover 3 _ (fun t _ => flushed_eq V c t) cover

end Cert.KernelIdeal.LinearArray

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.DecodeBody.lean ====
/-
  What the decoder kernel's body stores, read at one entry over the extended reals.

  The body loads a block `vq` of 16384 codes and the decoder's two weight matrices and two bias vectors whole, and
  stores `max(vq · w1 + b1, 0) · w2 + b2`: entry (p, q) is
      (∑ₕ max(∑ₗ vq[p, l] · w1[l, h] + b1[h], 0) · w2[h, q]) + b2[q].
  Every change of float format in the body is the identity on the extended reals, and each product is accumulated
  into zero.
-/
import proofs.«140959_j13211319403237_1_alg».proof.Proof.Gen.KernelIdeal.Skeleton
import proofs.«140959_j13211319403237_1_alg».proof.Proof.LibMatmulAt
import proofs.«140959_j13211319403237_1_alg».proof.Proof.Spec
import Idealize.ShloMosaic.Lib.ValueLayout
import Idealize.ShloMosaic.Lib.Pipeline.Value

noncomputable section

namespace Cert.KernelIdeal.DecodeBody

open Cert.KernelIdeal Cert.KernelIdeal.Gen Idealize.ShloMosaic Idealize.ShloMosaic.ValueIdx Idealize.ShloMosaic.MatmulAt

/-! Where the two products' dimension numbers read their operands: the left at (row, k), the right at (k, column). -/

theorem hid_lhs_0 (i : S16384x64.Idx) (q : dot_S16384x16_S16x64_S16384x64_1_0_0_1_n_n.contr.Idx) :
    (dot_S16384x16_S16x64_S16384x64_1_0_0_1_n_n.lhsIdx i q 0).val = (i 0).val := by
  unfold DotDims.lhsIdx
  rw [dif_neg (show ¬(0 : Fin S16384x16.rank) ∈ dot_S16384x16_S16x64_S16384x64_1_0_0_1_n_n.lhsBatch by decide), dif_pos (show (0 : Fin S16384x16.rank) ∈ dot_S16384x16_S16x64_S16384x64_1_0_0_1_n_n.lhsNonContracting by decide)]
  rfl
theorem hid_lhs_1 (i : S16384x64.Idx) (q : dot_S16384x16_S16x64_S16384x64_1_0_0_1_n_n.contr.Idx) :
    (dot_S16384x16_S16x64_S16384x64_1_0_0_1_n_n.lhsIdx i q 1).val = (q ⟨0, by decide⟩).val :=
  dot_S16384x16_S16x64_S16384x64_1_0_0_1_n_n.lhsIdx_val_of_single rfl i q
theorem hid_rhs_0 (i : S16384x64.Idx) (q : dot_S16384x16_S16x64_S16384x64_1_0_0_1_n_n.contr.Idx) :
    (dot_S16384x16_S16x64_S16384x64_1_0_0_1_n_n.rhsIdx i q 0).val = (q ⟨0, by decide⟩).val :=
  dot_S16384x16_S16x64_S16384x64_1_0_0_1_n_n.rhsIdx_val_of_single rfl i q
theorem hid_rhs_1 (i : S16384x64.Idx) (q : dot_S16384x16_S16x64_S16384x64_1_0_0_1_n_n.contr.Idx) :
    (dot_S16384x16_S16x64_S16384x64_1_0_0_1_n_n.rhsIdx i q 1).val = (i 1).val := by
  unfold DotDims.rhsIdx
  rw [dif_neg (show ¬(1 : Fin S16x64.rank) ∈ dot_S16384x16_S16x64_S16384x64_1_0_0_1_n_n.rhsBatch by decide), dif_pos (show (1 : Fin S16x64.rank) ∈ dot_S16384x16_S16x64_S16384x64_1_0_0_1_n_n.rhsNonContracting by decide)]
  rfl

theorem outp_lhs_0 (i : S16384x16.Idx) (q : dot_S16384x64_S64x16_S16384x16_1_0_0_1_n_n.contr.Idx) :
    (dot_S16384x64_S64x16_S16384x16_1_0_0_1_n_n.lhsIdx i q 0).val = (i 0).val := by
  unfold DotDims.lhsIdx
  rw [dif_neg (show ¬(0 : Fin S16384x64.rank) ∈ dot_S16384x64_S64x16_S16384x16_1_0_0_1_n_n.lhsBatch by decide), dif_pos (show (0 : Fin S16384x64.rank) ∈ dot_S16384x64_S64x16_S16384x16_1_0_0_1_n_n.lhsNonContracting by decide)]
  rfl
theorem outp_lhs_1 (i : S16384x16.Idx) (q : dot_S16384x64_S64x16_S16384x16_1_0_0_1_n_n.contr.Idx) :
    (dot_S16384x64_S64x16_S16384x16_1_0_0_1_n_n.lhsIdx i q 1).val = (q ⟨0, by decide⟩).val :=
  dot_S16384x64_S64x16_S16384x16_1_0_0_1_n_n.lhsIdx_val_of_single rfl i q
theorem outp_rhs_0 (i : S16384x16.Idx) (q : dot_S16384x64_S64x16_S16384x16_1_0_0_1_n_n.contr.Idx) :
    (dot_S16384x64_S64x16_S16384x16_1_0_0_1_n_n.rhsIdx i q 0).val = (q ⟨0, by decide⟩).val :=
  dot_S16384x64_S64x16_S16384x16_1_0_0_1_n_n.rhsIdx_val_of_single rfl i q
theorem outp_rhs_1 (i : S16384x16.Idx) (q : dot_S16384x64_S64x16_S16384x16_1_0_0_1_n_n.contr.Idx) :
    (dot_S16384x64_S64x16_S16384x16_1_0_0_1_n_n.rhsIdx i q 1).val = (i 1).val := by
  unfold DotDims.rhsIdx
  rw [dif_neg (show ¬(1 : Fin S64x16.rank) ∈ dot_S16384x64_S64x16_S16384x16_1_0_0_1_n_n.rhsBatch by decide), dif_pos (show (1 : Fin S64x16.rank) ∈ dot_S16384x64_S64x16_S16384x16_1_0_0_1_n_n.rhsNonContracting by decide)]
  rfl

/-- Entry (p, q) of the stored block is the decoder applied to row `p` of the loaded codes. -/
theorem pay_at (v0 : Vec Ideal S16384x16 .f32) (v2 : Vec Ideal S16x64 .f32) (v5 : Vec Ideal S64 .f32)
    (v12 : Vec Ideal S64x16 .f32) (v15 : Vec Ideal S16 .f32) (p : Fin 16384) (q : Fin 16) :
    k0_pay1 (F := Ideal) v0 v2 v5 v12 v15 (ix2 p q) = Cert.Spec.decodeAt v0 v2 v5 v12 v15 p q := by
  unfold k0_pay1 Cert.Spec.decodeAt
  show FloatOps.matmul dot_S16384x64_S64x16_S16384x16_1_0_0_1_n_n none _ _ (constant (F := Ideal) S16384x16 .f32 0x00000000#32) (ix2 p q)
      + broadcastTo S16384x16 (shapeCast S1x16 v15 _) _ (ix2 p q) = _
  rw [matmul_zero_at (A := 16384) (K := 64) (B := 16) dot_S16384x64_S64x16_S16384x16_1_0_0_1_n_n rfl rfl outp_lhs_0 outp_lhs_1 outp_rhs_0 outp_rhs_1,
    broadcastTo_1b_ab_apply, shapeCast_a_1a_apply]
  refine congrArg (· + v15 (ix1 q)) (Finset.sum_congr rfl fun h _ => ?_)
  refine congrArg (· * v12 (ix2 h q)) ?_
  show max (FloatOps.matmul dot_S16384x16_S16x64_S16384x64_1_0_0_1_n_n none _ _ (constant (F := Ideal) S16384x64 .f32 0x00000000#32) (ix2 p h)
      + broadcastTo S16384x64 (shapeCast S1x64 v5 _) _ (ix2 p h)) _ = _
  rw [matmul_zero_at (A := 16384) (K := 16) (B := 64) dot_S16384x16_S16x64_S16384x64_1_0_0_1_n_n rfl rfl hid_lhs_0 hid_lhs_1 hid_rhs_0 hid_rhs_1,
    broadcastTo_1b_ab_apply, shapeCast_a_1a_apply]
  rfl

end Cert.KernelIdeal.DecodeBody

end
-- ==== Proof.DecodeArray.lean ====
/-
  The array the decoder kernel's launch leaves, as one function of the arrays it finds.

  The launch runs over 64 grid points. Point `t` reads rows `16384·t … 16384·t + 16383` of the code table and the
  decoder's four parameter arrays whole, and writes the same rows of the decoded table. Each written entry
  (16384·t + p, q) is the decoder applied to row `16384·t + p` of the codes, which names no `t`: the 64 row
  blocks are restrictions of ONE function of the arrays, and they tile the decoded table, so it ends holding
  that function.
-/
import proofs.«140959_j13211319403237_1_alg».proof.Proof.Gen.KernelIdeal.Frame
import proofs.«140959_j13211319403237_1_alg».proof.Proof.DecodeBody
import Idealize.ShloMosaic.Lib.Pipeline.Value

set_option maxRecDepth 16384

noncomputable section

namespace Cert.KernelIdeal.DecodeArray

open Cert.KernelIdeal Cert.KernelIdeal.Gen Idealize.ShloMosaic Idealize.ShloMosaic.TcCoe Idealize.ShloMosaic.ValueIdx
open Idealize.SL.Sem
open Idealize.ShloMosaic.Pipeline (Dat)

-- The contents of the core's buffers when the launch is entered: a parameter.
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The block index of each window at grid point `t`: the codes and the decoded table are at row block `t`; the
    decoder's parameters stay at block 0. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the code block at point `t` is row `16384·t + p` of the code table. -/
theorem read_vq (c : Dev nD) (t : Fin cfg0.N) (p : Fin 16384) (l : Fin 16) (hp : t.val * 16384 + p.val < 1048576) :
    iblk0 V c 0 t (ix2 p l) = V c main_arg1 (ix2 ⟨t.val * 16384 + p.val, hp⟩ l) := by
  obtain ⟨e0, e1, -⟩ := block_index t
  show V c main_arg1 (((cfg0.win 0).blk t).view.emb (ix2 p l)) = V c main_arg1 (ix2 ⟨t.val * 16384 + p.val, hp⟩ l)
  refine congrArg (V c main_arg1) (funext fun a => Fin.ext ?_)
  match a with
  | ⟨0, _⟩ => show win0_0.index t (0 : Fin 2) * 16384 + 1 * p.val = t.val * 16384 + p.val; omega
  | ⟨1, _⟩ => show win0_0.index t (1 : Fin 2) * 16 + 1 * l.val = l.val; omega

/-- The hidden layer's weight block at any point is the weight array. -/
theorem read_w1 (c : Dev nD) (t : Fin cfg0.N) : (iblk0 V c 1 t : Vec Ideal S16x64 .f32) = V c main_arg2 := by
  obtain ⟨-, -, e2, e3, -⟩ := block_index t
  funext y
  show V c main_arg2 (((cfg0.win 1).blk t).view.emb y) = V c main_arg2 y
  refine congrArg (V c main_arg2) (funext fun a => Fin.ext ?_)
  match a with
  | ⟨0, _⟩ => show win0_1.index t (0 : Fin 2) * 16 + 1 * (y 0).val = (y 0).val; omega
  | ⟨1, _⟩ => show win0_1.index t (1 : Fin 2) * 64 + 1 * (y 1).val = (y 1).val; omega

/-- The hidden layer's bias block at any point is the bias array. -/
theorem read_b1 (c : Dev nD) (t : Fin cfg0.N) : (iblk0 V c 2 t : Vec Ideal S64 .f32) = V c main_arg3 := by
  obtain ⟨-, -, -, -, e4, -⟩ := block_index t
  funext y
  show V c main_arg3 (((cfg0.win 2).blk t).view.emb y) = V c main_arg3 y
  refine congrArg (V c main_arg3) (funext fun a => Fin.ext ?_)
  match a with
  | ⟨0, _⟩ => show win0_2.index t (0 : Fin 1) * 64 + 1 * (y 0).val = (y 0).val; omega

/-- The output layer's weight block at any point is the weight array. -/
theorem read_w2 (c : Dev nD) (t : Fin cfg0.N) : (iblk0 V c 3 t : Vec Ideal S64x16 .f32) = V c main_arg4 := by
  obtain ⟨-, -, -, -, -, e5, e6, -⟩ := block_index t
  funext y
  show V c main_arg4 (((cfg0.win 3).blk t).view.emb y) = V c main_arg4 y
  refine congrArg (V c main_arg4) (funext fun a => Fin.ext ?_)
  match a with
  | ⟨0, _⟩ => show win0_3.index t (0 : Fin 2) * 64 + 1 * (y 0).val = (y 0).val; omega
  | ⟨1, _⟩ => show win0_3.index t (1 : Fin 2) * 16 + 1 * (y 1).val = (y 1).val; omega

/-- The output layer's bias block at any point is the bias array. -/
theorem read_b2 (c : Dev nD) (t : Fin cfg0.N) : (iblk0 V c 4 t : Vec Ideal S16 .f32) = V c main_arg5 := by
  obtain ⟨-, -, -, -, -, -, -, e7, -⟩ := block_index t
  funext y
  show V c main_arg5 (((cfg0.win 4).blk t).view.emb y) = V c main_arg5 y
  refine congrArg (V c main_arg5) (funext fun a => Fin.ext ?_)
  match a with
  | ⟨0, _⟩ => show win0_4.index t (0 : Fin 1) * 16 + 1 * (y 0).val = (y 0).val; omega

/-- What the body stores from a code block that is rows `16384·n + ·` of a table `A0` — read at `j` — is the
    decoded table of `A0` read at the index `i` with row `16384·n + j₀` and the same column. Stated over variables of
    the literal types. -/
theorem block_value (X0 : Vec Ideal S16384x16 .f32) (A0 : Vec Ideal S1048576x16 .f32)
    (X1 A1 : Vec Ideal S16x64 .f32) (X2 A2 : Vec Ideal S64 .f32) (X3 A3 : Vec Ideal S64x16 .f32) (X4 A4 : Vec Ideal S16 .f32)
    (n : ℕ)
    (h0 : ∀ (p : Fin 16384) (l : Fin 16) (hp : n * 16384 + p.val < 1048576), X0 (ix2 p l) = A0 (ix2 ⟨n * 16384 + p.val, hp⟩ l))
    (h1 : X1 = A1) (h2 : X2 = A2) (h3 : X3 = A3) (h4 : X4 = A4)
    (j : S16384x16.Idx) (i : S1048576x16.Idx) (hi0 : (i 0).val = n * 16384 + (j 0).val) (hi1 : (i 1).val = (j 1).val) :
    k0_pay1 (F := Ideal) X0 X1 X2 X3 X4 j = Cert.Spec.decode A0 A1 A2 A3 A4 i := by
  obtain ⟨p, q, rfl⟩ : ∃ (p : Fin 16384) (q : Fin 16), j = ix2 p q := ⟨j 0, j 1, eq_ix2 j⟩
  obtain ⟨p', q', rfl⟩ : ∃ (p' : Fin 1048576) (q' : Fin 16), i = ix2 p' q' := ⟨i 0, i 1, eq_ix2 i⟩
  have hq : q' = q := Fin.ext hi1
  subst hq
  have hp : n * 16384 + p.val < 1048576 := by
    have := p'.isLt
    have e : p'.val = n * 16384 + p.val := hi0
    omega
  have hp' : p' = ⟨n * 16384 + p.val, hp⟩ := Fin.ext hi0
  subst hp' h1 h2 h3 h4
  rw [DecodeBody.pay_at]
  show Cert.Spec.decodeAt X0 X1 X2 X3 X4 p q' = Cert.Spec.decodeAt A0 X1 X2 X3 X4 ⟨n * 16384 + p.val, hp⟩ q'
  unfold Cert.Spec.decodeAt
  refine congrArg (· + X4 (ix1 q')) (Finset.sum_congr rfl fun h _ => ?_)
  refine congrArg (· * X3 (ix2 h q')) ?_
  refine congrArg (fun s => max (s + X2 (ix1 h)) Cert.Spec.zero) (Finset.sum_congr rfl fun l _ => ?_)
  rw [h0 p l hp]

/-- What point `t` writes back is block `t` of the decoded table of the arrays the launch finds. -/
theorem flushed_eq (c : Dev nD) (t : Fin cfg0.N) :
    (dat0 V c).flushed 5 t
      = ((cfg0.win 5).blk t).view.read (Elt Ideal)
          (Cert.Spec.decode (V c main_arg1) (V c main_arg2) (V c main_arg3) (V c main_arg4) (V c main_arg5)) := by
  show (cfg0.win 5).cut (grid0.coords t) ((dat0 V c).after 5 t) = _
  rw [after0_5]
  unfold out0_5
  rw [View.canon_unit_zero zeros2]
  simp only [View.ld_unit_zero (S := S16384x16) zeros2, View.ld_unit_zero (S := S16x64) zeros2,
    View.ld_unit_zero (S := S64x16) zeros2, View.ld_unit_zero (S := S64) zeros1, View.ld_unit_zero (S := S16) zeros1]
  obtain ⟨-, -, -, -, -, -, -, -, e8, e9⟩ := block_index t
  funext j
  exact block_value (iblk0 V c 0 t) (V c main_arg1) (iblk0 V c 1 t) (V c main_arg2) (iblk0 V c 2 t) (V c main_arg3)
    (iblk0 V c 3 t) (V c main_arg4) (iblk0 V c 4 t) (V c main_arg5) t.val
    (read_vq V c t) (read_w1 V c t) (read_b1 V c t) (read_w2 V c t) (read_b2 V c t) j (((cfg0.win 5).blk t).view.emb j)
    (by show win0_5.index t (0 : Fin 2) * 16384 + 1 * (j 0).val = t.val * 16384 + (j 0).val; omega)
    (by show win0_5.index t (1 : Fin 2) * 16 + 1 * (j 1).val = (j 1).val; omega)

/-- An index of the decoded table is in point `t`'s block iff each coordinate is in the block's range on its axis. -/
theorem mem_blk (t : Fin cfg0.N) (i : S1048576x16.Idx) :
    i ∈ ((cfg0.win 5).blk t).view.set ↔ ∀ a : Fin 2, win0_5.index t a * S16384x16.size a ≤ (i a).val
      ∧ (i a).val < win0_5.index t a * S16384x16.size a + S16384x16.size a := by
  show i ∈ ((View.whole main_v0).slice (win0_5.rect t)).set ↔ _
  rw [View.set_slice_whole, Rect.mem_set_unit]
  exact Iff.rfl

/-- Every index of the decoded table is in the block of the point its row falls to. -/
theorem cover (i : S1048576x16.Idx) :
    ∃ t : Fin cfg0.N, (cfg0.win 5).flush t = true ∧ i ∈ ((cfg0.win 5).blk t).view.set := by
  have h0 : (i 0).val < 1048576 := (i 0).isLt
  have h1 : (i 1).val < 16 := (i 1).isLt
  obtain ⟨t, ht⟩ : ∃ t : Fin cfg0.N, t.val = (i 0).val / 16384 := ⟨⟨(i 0).val / 16384, by show _ < 64; omega⟩, rfl⟩
  obtain ⟨-, -, -, -, -, -, -, -, e8, e9⟩ := block_index t
  refine ⟨t, flush0_5 t, ?_⟩
  rw [mem_blk]
  intro a
  match a with
  | ⟨0, _⟩ => show win0_5.index t (0 : Fin 2) * 16384 ≤ (i 0).val ∧ (i 0).val < win0_5.index t (0 : Fin 2) * 16384 + 16384; omega
  | ⟨1, _⟩ => show win0_5.index t (1 : Fin 2) * 16 ≤ (i 1).val ∧ (i 1).val < win0_5.index t (1 : Fin 2) * 16 + 16; omega

/-- The decoded table after the launch: the decoder applied to every row of the code table the launch finds. -/
theorem array_eq (c : Dev nD) :
    (dat0 V c).arrAt 5 cfg0.N
      = Cert.Spec.decode (V c main_arg1) (V c main_arg2) (V c main_arg3) (V c main_arg4) (V c main_arg5) :=
  (dat0 V c).arrAt_eq_of_cover 5 _ (fun t _ => flushed_eq V c t) cover

end Cert.KernelIdeal.DecodeArray

end
-- ==== Proof.Reshape.lean ====
/-
  The layer's output through the two reshapes around the matrix product.

  The input [8, 16, 4096] is read as a matrix [128, 4096] (row `16·b + s`), the product `x · Wᵀ + bias` is taken
  there, and the [128, 4096] result is read back as [8, 16, 4096]. Entry (b, s, o) of the result is entry
  (16·b + s, o) of the product, whose row `16·b + s` of the reshaped input is row (b, s) of the input: so it is
  `(∑ₖ x[b, s, k] · W[o, k]) + bias[o]`, the layer's output.
-/
import proofs.«140959_j13211319403237_1_alg».proof.Proof.Spec
import Idealize.ShloMosaic.Lib.Pipeline.Value

noncomputable section

namespace Cert.Spec

open Idealize.ShloMosaic Idealize.ShloMosaic.ValueIdx

theorem out_of_linear (x : (⟨3, ![8, 16, 4096]⟩ : Shape).Idx → EReal) (w : (⟨2, ![4096, 4096]⟩ : Shape).Idx → EReal)
    (b : (⟨1, ![4096]⟩ : Shape).Idx → EReal)
    (h1 : (⟨3, ![8, 16, 4096]⟩ : Shape).ShapeCasts ⟨2, ![128, 4096]⟩)
    (h2 : (⟨2, ![128, 4096]⟩ : Shape).ShapeCasts ⟨3, ![8, 16, 4096]⟩) :
    shapeCast ⟨3, ![8, 16, 4096]⟩ (linear (shapeCast ⟨2, ![128, 4096]⟩ x h1) w b) h2 = out x w b := by
  funext i
  obtain ⟨i0, i1, o, rfl⟩ : ∃ (i0 : Fin 8) (i1 : Fin 16) (o : Fin 4096), i = ix3 i0 i1 o := ⟨i 0, i 1, i 2, eq_ix3 i⟩
  have hp : i0.val * 16 + i1.val < 128 := by have := i0.isLt; have := i1.isLt; omega
  rw [shapeCast_apply _ h2 (ix3 i0 i1 o) (ix2 (⟨i0.val * 16 + i1.val, hp⟩ : Fin 128) o)
    (by rw [Shape.rowMajor_val_two, Shape.rowMajor_val_three]; rfl)]
  show linearAt (shapeCast ⟨2, ![128, 4096]⟩ x h1) w b (⟨i0.val * 16 + i1.val, hp⟩ : Fin 128) o = outAt x w b i0 i1 o
  unfold linearAt outAt
  refine congrArg (· + b (ix1 o)) (Finset.sum_congr rfl fun k _ => ?_)
  rw [shapeCast_apply x h1 (ix2 (⟨i0.val * 16 + i1.val, hp⟩ : Fin 128) k) (ix3 i0 i1 k)
    (by rw [Shape.rowMajor_val_three, Shape.rowMajor_val_two]; rfl)]

end Cert.Spec

end
-- ==== Proof.KernelValue.lean ====
/-
  The kernel program's result array as a function of its arguments.

  After the run the result array holds what the fold through @main leaves there: the final reshape of what the
  linear launch wrote, which is `x · Wᵀ + bias` of the arrays that launch found — the input reshaped to a matrix,
  the rearrangement of what the decoder launch wrote, and the bias as launched — and the decoder launch wrote the
  decoder applied to every row of the code table as launched. Put together, the result is the layer's output of
  the arguments.
-/
import proofs.«140959_j13211319403237_1_alg».proof.Proof.Gen.KernelIdeal.Frame
import proofs.«140959_j13211319403237_1_alg».proof.Proof.LinearArray
import proofs.«140959_j13211319403237_1_alg».proof.Proof.DecodeArray
import proofs.«140959_j13211319403237_1_alg».proof.Proof.Reshape
import Idealize.ShloMosaic.Lib.StableHlo.Run

set_option maxRecDepth 16384

noncomputable section

namespace Cert.KernelIdeal.ResultValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- What the decoder launch leaves in the decoded table: the decoder applied to every row of the codes as launched. -/
theorem decoded (c : Dev nD) :
    W1 m ρ c (Proc.devRef .tc main_v0)
      = Cert.Spec.decode (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  (W1_arr m ρ c 5).trans (DecodeArray.array_eq (V0 m ρ) c)

/-- The weight matrix the linear launch finds is the rearrangement of the decoded table. -/
theorem weight (c : Dev nD) :
    V2 m ρ c main_v4 = Cert.Spec.relay shapeCasts_S1048576x16_S1048576x4x4 transposes_S1048576x4x4_S4x1048576x4_1_0_2
        shapeCasts_S4x1048576x4_S16777216 shapeCasts_S16777216_S4096x4096 (W1 m ρ c (Proc.devRef .tc main_v0)) := by
  show StableHlo.after hostOps1 (W1 m ρ c) (Proc.devRef .tc main_v4) = _
  after_results
  rfl

/-- The input matrix the linear launch finds is the input as launched, reshaped. -/
theorem input (c : Dev nD) :
    V2 m ρ c main_v5 = shapeCast S128x4096 (m ((c.tc : Thread nD τ).loc main_arg0)) shapeCasts_S8x16x4096_S128x4096 := by
  have h : V2 m ρ c main_v5 = shapeCast S128x4096 (W1 m ρ c (Proc.devRef .tc main_arg0)) shapeCasts_S8x16x4096_S128x4096 := by
    show StableHlo.after hostOps1 (W1 m ρ c) (Proc.devRef .tc main_v5) = _
    after_results
    rfl
  rw [h, W1_of_ne m ρ c main_arg0 (by decide)]

/-- The bias the linear launch finds is the bias as launched. -/
theorem bias (c : Dev nD) : V2 m ρ c main_arg6 = m ((c.tc : Thread nD τ).loc main_arg6) := by
  show StableHlo.after hostOps1 (W1 m ρ c) (Proc.devRef .tc main_arg6) = _
  after_results
  exact W1_of_ne m ρ c main_arg6 (by decide)

/-- The result array at the end of @main is the layer's output of the arguments. -/
theorem result_value (c : Dev nD) :
    W4 m ρ c (Proc.devRef .tc main_v7)
      = Cert.Spec.out (m ((c.tc : Thread nD τ).loc main_arg0))
          (Cert.Spec.relay shapeCasts_S1048576x16_S1048576x4x4 transposes_S1048576x4x4_S4x1048576x4_1_0_2
        shapeCasts_S4x1048576x4_S16777216 shapeCasts_S16777216_S4096x4096
            (Cert.Spec.decode (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))))
          (m ((c.tc : Thread nD τ).loc main_arg6)) := by
  have h4 : W4 m ρ c (Proc.devRef .tc main_v7)
      = shapeCast S8x16x4096 (W3 m ρ c (Proc.devRef .tc main_v6)) shapeCasts_S128x4096_S8x16x4096 := by
    show StableHlo.after hostOps2 (W3 m ρ c) (Proc.devRef .tc main_v7) = _
    after_results
    rfl
  have h3 : W3 m ρ c (Proc.devRef .tc main_v6)
      = Cert.Spec.linear (V2 m ρ c main_v5) (V2 m ρ c main_v4) (V2 m ρ c main_arg6) :=
    (W3_arr m ρ c 3).trans (LinearArray.array_eq (V2 m ρ) c)
  rw [h4, h3, input, weight, decoded, bias]
  exact Cert.Spec.out_of_linear _ _ _ _ _

end Cert.KernelIdeal.ResultValue

end
-- ==== Proof.RefValue.lean ====
/-
  The reference, read index by index, is the layer's output of the decoded and rearranged table.

  The reference decodes the whole code table with two matrix products (a rectifier between them), rearranges the
  decoded table into the weight matrix, contracts the input's last axis with the weight matrix's second axis and
  adds the bias. Each matrix product read at an entry is a sum over its contracted axis, each broadcast reads its
  operand at the matching coordinate, and the rearrangement is the shared relabelling, never opened.
-/
import proofs.«140959_j13211319403237_1_alg».proof.Proof.Gen.ReferenceIdeal.Read
import proofs.«140959_j13211319403237_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's decoded table is the decoder applied to every row of the code table. -/
theorem decoded_eq (x1 : (⟨S1048576x16, .f32⟩ : BufTy).Contents (Elt Ideal)) (x2 : (⟨S16x64, .f32⟩ : BufTy).Contents (Elt Ideal))
    (x3 : (⟨S64, .f32⟩ : BufTy).Contents (Elt Ideal)) (x4 : (⟨S64x16, .f32⟩ : BufTy).Contents (Elt Ideal))
    (x5 : (⟨S16, .f32⟩ : BufTy).Contents (Elt Ideal)) :
    val_main_v8 (F := Ideal) x1 x2 x3 x4 x5 = Cert.Spec.decode x1 x2 x3 x4 x5 := by
  funext j
  obtain ⟨p, q, rfl⟩ : ∃ (p : Fin 1048576) (q : Fin 16), j = ix2 p q := ⟨j 0, j 1, eq_ix2 j⟩
  rw [val_main_v8_apply, val_main_v5_apply, val_main_v7_apply, val_main_v6_apply]
  show (∑ k : Fin 64, val_main_v4 (F := Ideal) x1 x2 x3 (lidx_main_v5 (ix2 p q) k) * x4 (ridx_main_v5 (ix2 p q) k))
      + x5 (idx_main_v6 (idx_main_v7 (ix2 p q))) = Cert.Spec.decodeAt x1 x2 x3 x4 x5 p q
  unfold Cert.Spec.decodeAt
  have e5 : idx_main_v6 (idx_main_v7 (ix2 p q)) = ix1 q := funext fun a => Fin.ext (by match a with | ⟨0, _⟩ => rfl)
  rw [e5]
  refine congrArg (· + x5 (ix1 q)) (Finset.sum_congr rfl fun h _ => ?_)
  have er : ridx_main_v5 (ix2 p q) h = ix2 h q := funext fun a => Fin.ext (by match a with | ⟨0, _⟩ => rfl | ⟨1, _⟩ => rfl)
  have el : lidx_main_v5 (ix2 p q) h = ix2 p h := funext fun a => Fin.ext (by match a with | ⟨0, _⟩ => rfl | ⟨1, _⟩ => rfl)
  rw [er, el]
  refine congrArg (· * x4 (ix2 h q)) ?_
  rw [val_main_v4_apply, val_main_v3_apply, val_main_v0_apply, val_main_v2_apply, val_main_v1_apply,
    val_main_call0_v0_apply, val_main_call0_cst_apply]
  have e3 : idx_main_v1 (idx_main_v2 (ix2 p h)) = ix1 h := funext fun a => Fin.ext (by match a with | ⟨0, _⟩ => rfl)
  rw [e3]
  show max ((∑ l : Fin 16, x1 (lidx_main_v0 (ix2 p h) l) * x2 (ridx_main_v0 (ix2 p h) l)) + x3 (ix1 h)) Cert.Spec.zero
    = max ((∑ l : Fin 16, x1 (ix2 p l) * x2 (ix2 l h)) + x3 (ix1 h)) Cert.Spec.zero
  refine congrArg (fun s => max (s + x3 (ix1 h)) Cert.Spec.zero) (Finset.sum_congr rfl fun l _ => ?_)
  have fl : lidx_main_v0 (ix2 p h) l = ix2 p l := funext fun a => Fin.ext (by match a with | ⟨0, _⟩ => rfl | ⟨1, _⟩ => rfl)
  have fr : ridx_main_v0 (ix2 p h) l = ix2 l h := funext fun a => Fin.ext (by match a with | ⟨0, _⟩ => rfl | ⟨1, _⟩ => rfl)
  rw [fl, fr]

/-- The reference's weight matrix is the rearrangement of its decoded table. -/
theorem weight_eq (x1 : (⟨S1048576x16, .f32⟩ : BufTy).Contents (Elt Ideal)) (x2 : (⟨S16x64, .f32⟩ : BufTy).Contents (Elt Ideal))
    (x3 : (⟨S64, .f32⟩ : BufTy).Contents (Elt Ideal)) (x4 : (⟨S64x16, .f32⟩ : BufTy).Contents (Elt Ideal))
    (x5 : (⟨S16, .f32⟩ : BufTy).Contents (Elt Ideal)) :
    val_main_v12 (F := Ideal) x1 x2 x3 x4 x5
      = Cert.Spec.relay shapeCasts_S1048576x16_S1048576x4x4 transposes_S1048576x4x4_S4x1048576x4_1_0_2
          shapeCasts_S4x1048576x4_S16777216 shapeCasts_S16777216_S4096x4096 (val_main_v8 (F := Ideal) x1 x2 x3 x4 x5) := rfl

/-- The reference's result is the layer's output of the input, the rearranged decoded table and the bias. -/
theorem result_eq (x0 : (⟨S8x16x4096, .f32⟩ : BufTy).Contents (Elt Ideal)) (x1 : (⟨S1048576x16, .f32⟩ : BufTy).Contents (Elt Ideal))
    (x2 : (⟨S16x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (x6 : (⟨S4096, .f32⟩ : BufTy).Contents (Elt Ideal)) :
    val_main_v16 (F := Ideal) x0 x1 x2 x3 x4 x5 x6
      = Cert.Spec.out x0 (Cert.Spec.relay shapeCasts_S1048576x16_S1048576x4x4 transposes_S1048576x4x4_S4x1048576x4_1_0_2
          shapeCasts_S4x1048576x4_S16777216 shapeCasts_S16777216_S4096x4096 (Cert.Spec.decode x1 x2 x3 x4 x5)) x6 := by
  funext i
  obtain ⟨i0, i1, o, rfl⟩ : ∃ (i0 : Fin 8) (i1 : Fin 16) (o : Fin 4096), i = ix3 i0 i1 o := ⟨i 0, i 1, i 2, eq_ix3 i⟩
  rw [val_main_v16_apply, val_main_v13_apply, val_main_v15_apply, val_main_v14_apply, weight_eq, decoded_eq]
  generalize Cert.Spec.relay shapeCasts_S1048576x16_S1048576x4x4 transposes_S1048576x4x4_S4x1048576x4_1_0_2
    shapeCasts_S4x1048576x4_S16777216 shapeCasts_S16777216_S4096x4096 (Cert.Spec.decode x1 x2 x3 x4 x5) = W
  have e6 : idx_main_v14 (idx_main_v15 (ix3 i0 i1 o)) = ix1 o := funext fun a => Fin.ext (by match a with | ⟨0, _⟩ => rfl)
  rw [e6]
  show (∑ k : Fin 4096, x0 (lidx_main_v13 (ix3 i0 i1 o) k) * W (ridx_main_v13 (ix3 i0 i1 o) k)) + x6 (ix1 o)
    = Cert.Spec.outAt x0 W x6 i0 i1 o
  unfold Cert.Spec.outAt
  refine congrArg (· + x6 (ix1 o)) (Finset.sum_congr rfl fun k _ => ?_)
  have el : lidx_main_v13 (ix3 i0 i1 o) k = ix3 i0 i1 k := funext fun a => Fin.ext (by match a with | ⟨0, _⟩ => rfl | ⟨1, _⟩ => rfl | ⟨2, _⟩ => rfl)
  have er : ridx_main_v13 (ix3 i0 i1 o) k = ix2 o k := funext fun a => Fin.ext (by match a with | ⟨0, _⟩ => rfl | ⟨1, _⟩ => rfl)
  rw [el, er]

end Cert.ReferenceIdeal.RefValue

end
-- ==== Proof.lean ====
/-
  A linear layer whose weight matrix is stored as 1,048,576 latent codes of width 16: the kernel program against
  its reference, equal over the extended reals.

  Both programs decode every code through the same two-layer network,
      decoded[r, c] = (∑ₕ max(∑ₗ vq[r, l] · w1[l, h] + b1[h], 0) · w2[h, c]) + b2[c],
  rearrange the decoded table into a [4096, 4096] weight matrix `W` by the same relabelling of entries, and return
      out[b, s, o] = (∑ₖ x[b, s, k] · W[o, k]) + bias[o].
  The kernel program does it in two launches — the decoder over 64 blocks of 16384 codes, the product over 8 blocks
  of 512 output features, with the input reshaped to a matrix and back — and narrows some operands to a shorter
  float format, which is the identity on the extended reals; the reference does it with three whole-array
  contractions. Each side's sums are finite sums of extended reals in some order, and addition there is commutative
  and associative, so the two results are the same function of the arguments, entry by entry: the equality needs no
  finiteness of the inputs, and the precondition is never opened.

  The kernel programs' frames are the generated ones; the reference's frame is its generated run with the result
  dropped; the idealization rewrote nothing, so there is nothing to preserve. For the equality, the kernel program's
  run is read once more against its final state to name the result array (Proof/KernelRun.lean), each launch's
  array is read off its blocks (Proof/DecodeArray.lean, Proof/LinearArray.lean over the bodies' entries in
  Proof/DecodeBody.lean, Proof/LinearBody.lean), the fold through @main is read back to the arguments
  (Proof/KernelValue.lean, Proof/Reshape.lean), and the reference's generated stages are read at an index
  (Proof/RefValue.lean); both end at `Cert.Spec.out` of the same arrays (Proof/Spec.lean).
-/
import proofs.«140959_j13211319403237_1_alg».proof.Defs
import proofs.«140959_j13211319403237_1_alg».proof.Proof.Gen.Kernel
import proofs.«140959_j13211319403237_1_alg».proof.Proof.Gen.Kernel.Skeleton
import proofs.«140959_j13211319403237_1_alg».proof.Proof.Gen.Kernel.Launch
import proofs.«140959_j13211319403237_1_alg».proof.Proof.Gen.Kernel.Points
import proofs.«140959_j13211319403237_1_alg».proof.Proof.Gen.Kernel.Frame
import proofs.«140959_j13211319403237_1_alg».proof.Proof.Gen.KernelIdeal
import proofs.«140959_j13211319403237_1_alg».proof.Proof.Gen.KernelIdeal.Skeleton
import proofs.«140959_j13211319403237_1_alg».proof.Proof.Gen.KernelIdeal.Launch
import proofs.«140959_j13211319403237_1_alg».proof.Proof.Gen.KernelIdeal.Points
import proofs.«140959_j13211319403237_1_alg».proof.Proof.Gen.KernelIdeal.Frame
import proofs.«140959_j13211319403237_1_alg».proof.Proof.Gen.ReferenceIdeal
import proofs.«140959_j13211319403237_1_alg».proof.Proof.Gen.Pre_finite_inputs
import proofs.«140959_j13211319403237_1_alg».proof.Proof.Gen.ReferenceIdeal.Run
import proofs.«140959_j13211319403237_1_alg».proof.Proof.Gen.ReferenceIdeal.Read
import proofs.«140959_j13211319403237_1_alg».proof.Proof.KernelRun
import proofs.«140959_j13211319403237_1_alg».proof.Proof.KernelValue
import proofs.«140959_j13211319403237_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer's output of those arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (Cert.Spec.relay Cert.KernelIdeal.Gen.shapeCasts_S1048576x16_S1048576x4x4
        Cert.KernelIdeal.Gen.transposes_S1048576x4x4_S4x1048576x4_1_0_2
        Cert.KernelIdeal.Gen.shapeCasts_S4x1048576x4_S16777216 Cert.KernelIdeal.Gen.shapeCasts_S16777216_S4096x4096
        (Cert.Spec.decode (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.ResultValue.result_value m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefValue.result_eq,
      (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
